-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768x256 : Shape := ⟨2, ![32768, 256]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1x1024 .f32) (main_arg12 : FVec F S1x1024 .f32) (main_arg13 : FVec F S1x1024 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1x1024 .f32 := Host.absf main_arg12
  let main_cst_22 : FVec F S_ .f32 := constant S_ .f32 0x7F800000#32
  let main_v60 : FVec F S1x1024 .f32 := broadcastInDim S1x1024 ![] bcast_S_S1x1024 main_cst_22
  let main_v61 : IVec S1x1024 1 := cmpf .olt main_v59 main_v60
  let main_c_23 : IVec S_ 1 := constantI S_ 1 1#1
  let main_v62 : IVec S_ 1 := (fun x v => Host.reduce IntOp.andi x v reducesTo_S1x1024_S_d0_1 h_S_) main_v61 main_c_23
  let main_v63 : IVec S_ 1 := andi main_v58 main_v62
  let main_v64 : FVec F S1x1024 .f32 := Host.absf main_arg13
  let main_cst_24 : FVec F S_ .f32 := constant S_ .f32 0x7F800000#32
  let main_v65 : FVec F S1x1024 .f32 := broadcastInDim S1x1024 ![] bcast_S_S1x1024 main_cst_24
  let main_v66 : IVec S1x1024 1 := cmpf .olt main_v64 main_v65
  let main_c_25 : IVec S_ 1 := constantI S_ 1 1#1
  let main_v67 : IVec S_ 1 := (fun x v => Host.reduce IntOp.andi x v reducesTo_S1x1024_S_d0_1 h_S_) main_v66 main_c_25
  fn_part4 (F := F) main_v63 main_v67

def fn_part2 {F : FTy → Type} [FloatOps F] (main_arg7 : FVec F S1024x1024 .f32) (main_arg8 : FVec F S1024x1024 .f32) (main_arg9 : FVec F S1024x1024 .f32) (main_arg10 : FVec F S1x1024 .f32) (main_arg11 : FVec F S1x1024 .f32) (main_arg12 : FVec F S1x1024 .f32) (main_arg13 : FVec F S1x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_arg13 main_v48 main_v49 main_v50

def fn_part1 {F : FTy → Type} [FloatOps F] (main_arg4 : FVec F S256x1024 .f32) (main_arg5 : FVec F S256x1024 .f32) (main_arg6 : FVec F S1024x1024 .f32) (main_arg7 : FVec F S1024x1024 .f32) (main_arg8 : FVec F S1024x1024 .f32) (main_arg9 : FVec F S1024x1024 .f32) (main_arg10 : FVec F S1x1024 .f32) (main_arg11 : FVec F S1x1024 .f32) (main_arg12 : FVec F S1x1024 .f32) (main_arg13 : FVec F S1x1024 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x1024 .f32) (main_arg1 : FVec F S32768x256 .f32) (main_arg2 : FVec F S256x1024 .f32) (main_arg3 : FVec F S256x1024 .f32) (main_arg4 : FVec F S256x1024 .f32) (main_arg5 : FVec F S256x1024 .f32) (main_arg6 : FVec F S1024x1024 .f32) (main_arg7 : FVec F S1024x1024 .f32) (main_arg8 : FVec F S1024x1024 .f32) (main_arg9 : FVec F S1024x1024 .f32) (main_arg10 : FVec F S1x1024 .f32) (main_arg11 : FVec F S1x1024 .f32) (main_arg12 : FVec F S1x1024 .f32) (main_arg13 : FVec F S1x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x1024 : Shape := ⟨2, ![32768, 1024]⟩
abbrev S32768x256 : Shape := ⟨2, ![32768, 256]⟩
abbrev S256x1024 : Shape := ⟨2, ![256, 1024]⟩
abbrev S1024x1024 : Shape := ⟨2, ![1024, 1024]⟩
abbrev S1x1024 : Shape := ⟨2, ![1, 1024]⟩
abbrev S256x3072 : Shape := ⟨2, ![256, 3072]⟩
abbrev S1024x3072 : Shape := ⟨2, ![1024, 3072]⟩
abbrev S1x3072 : Shape := ⟨2, ![1, 3072]⟩
abbrev S256x256 : Shape := ⟨2, ![256, 256]⟩

abbrev nBuf : Space → Nat
  | .hbm => 22
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S256x3072, .f32⟩
  | .hbm, ⟨15, _⟩ => ⟨S256x3072, .bf16⟩
  | .hbm, ⟨16, _⟩ => ⟨S1024x3072, .f32⟩
  | .hbm, ⟨17, _⟩ => ⟨S1024x3072, .bf16⟩
  | .hbm, ⟨18, _⟩ => ⟨S1x3072, .f32⟩
  | .hbm, ⟨19, _⟩ => ⟨S256x1024, .bf16⟩
  | .hbm, ⟨20, _⟩ => ⟨S1024x1024, .bf16⟩
  | .hbm, ⟨21, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x3072, .bf16⟩
  | .local _ .vmem, ⟨5, _⟩ => ⟨S1024x3072, .bf16⟩
  | .local _ .vmem, ⟨6, _⟩ => ⟨S256x1024, .bf16⟩
  | .local _ .vmem, ⟨7, _⟩ => ⟨S1024x1024, .bf16⟩
  | .local _ .vmem, ⟨8, _⟩ => ⟨S1x3072, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S256x1024_S256x1024_S256x1024_S256x3072_d1 : Shape.Concatenates [S256x1024, S256x1024, S256x1024] S256x3072 1
  bitsLt_bf16_f32 : FTy.bits .bf16 < FTy.bits .f32
  concatenates_S1024x1024_S1024x1024_S1024x1024_S1024x3072_d1 : Shape.Concatenates [S1024x1024, S1024x1024, S1024x1024] S1024x3072 1
  concatenates_S1x1024_S1x1024_S1x1024_S1x3072_d1 : Shape.Concatenates [S1x1024, S1x1024, S1x1024] S1x3072 1
  inb_S256x1024_S256x1024_0_0 : ∀ a, (![0, 0] : Fin 2 → Nat) a + S256x1024.size a ≤ S256x1024.size a
  h_S256x1024 : 0 < S256x1024.numel
  inb_S256x256_S256x256_0_0 : ∀ a, (![0, 0] : Fin 2 → Nat) a + S256x256.size a ≤ S256x256.size a
  h_S256x256 : 0 < S256x256.numel
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  dot_S256x256_S256x3072_S256x3072_1_0_0_1_n_n_wf : DotDims.WF S256x256 S256x3072 S256x3072 [1] [0] [0] [1] [] []
  dot_S256x1024_S1024x3072_S256x3072_1_0_0_1_n_n_wf : DotDims.WF S256x1024 S1024x3072 S256x3072 [1] [0] [0] [1] [] []
  dot_S256x256_S256x1024_S256x1024_1_0_0_1_n_n_wf : DotDims.WF S256x256 S256x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S32768x256.size a
  hwx0_1 : ∀ i : grid0.Coords, EltTy.bits .f32 = 32 ∨ (Rect.block (s := S32768x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S256x3072.size a
  hwx0_2 : ∀ i : grid0.Coords, EltTy.bits .bf16 = 32 ∨ (Rect.block (s := S256x3072) S256x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S32768x1024.size a
  hwx0_8 : ∀ i : grid0.Coords, EltTy.bits .f32 = 32 ∨ (Rect.block (s := S32768x1024) S256x1024.size (cc0_transform_8 i) (hinb0_8 i)).WholeWords (EltTy.packing .f32)

variable [Facts₀]

def dot_S256x256_S256x3072_S256x3072_1_0_0_1_n_n : DotDims S256x256 S256x3072 S256x3072 where
  lhsContracting := [1]
  rhsContracting := [0]
  lhsNonContracting := [0]
  rhsNonContracting := [1]
  lhsBatch := []
  rhsBatch := []
  wf := dot_S256x256_S256x3072_S256x3072_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768x256 : Shape := ⟨2, ![32768, 256]⟩
abbrev S256x1024 : Shape := ⟨2, ![256, 1024]⟩
abbrev S1024x1024 : Shape := ⟨2, ![1024, 1024]⟩
abbrev S1x1024 : Shape := ⟨2, ![1, 1024]⟩
abbrev S256x3072 : Shape := ⟨2, ![256, 3072]⟩
abbrev S1024x3072 : Shape := ⟨2, ![1024, 3072]⟩
abbrev S1x3072 : Shape := ⟨2, ![1, 3072]⟩
abbrev S32768x3072 : Shape := ⟨2, ![32768, 3072]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S256x3072, .f32⟩
  | .hbm, ⟨15, _⟩ => ⟨S1024x3072, .f32⟩
  | .hbm, ⟨16, _⟩ => ⟨S1x3072, .f32⟩
  | .hbm, ⟨17, _⟩ => ⟨S32768x3072, .f32⟩
  | .hbm, ⟨18, _⟩ => ⟨S32768x3072, .f32⟩
  | .hbm, ⟨19, _⟩ => ⟨S32768x3072, .f32⟩
  | .hbm, ⟨20, _⟩ => ⟨S32768x3072, .f32⟩
  | .hbm, ⟨21, _⟩ => ⟨S32768x3072, .f32⟩
  | .hbm, ⟨22, _⟩ => ⟨S32768x3072, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  concatenates_S256x1024_S256x1024_S256x1024_S256x3072_d1 : Shape.Concatenates [S256x1024, S256x1024, S256x1024] S256x3072 1
  concatenates_S1024x1024_S1024x1024_S1024x1024_S1024x3072_d1 : Shape.Concatenates [S1024x1024, S1024x1024, S1024x1024] S1024x3072 1
  concatenates_S1x1024_S1x1024_S1x1024_S1x3072_d1 : Shape.Concatenates [S1x1024, S1x1024, S1x1024] S1x3072 1
  bcast_S1x3072_S32768x3072_0_1 : S1x3072.BroadcastsInDim S32768x3072 (![0, 1] : Fin 2 → Fin S32768x3072.rank)
  slices_S32768x3072_S32768x1024_0_0 : S32768x3072.Slices ![0, 0] S32768x1024
  slices_S32768x3072_S32768x1024_0_1024 : S32768x3072.Slices ![0, 1024] S32768x1024
  slices_S32768x3072_S32768x1024_0_2048 : S32768x3072.Slices ![0, 2048] S32768x1024
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  dot_S32768x256_S256x3072_S32768x3072_1_0_0_1_n_n_wf : DotDims.WF S32768x256 S256x3072 S32768x3072 [1] [0] [0] [1] [] []
  dot_S32768x1024_S1024x3072_S32768x3072_1_0_0_1_n_n_wf : DotDims.WF S32768x1024 S1024x3072 S32768x3072 [1] [0] [0] [1] [] []
  dot_S32768x256_S256x1024_S32768x1024_1_0_0_1_n_n_wf : DotDims.WF S32768x256 S256x1024 S32768x1024 [1] [0] [0] [1] [] []
  dot_S32768x1024_S1024x1024_S32768x1024_1_0_0_1_n_n_wf : DotDims.WF S32768x1024 S1024x1024 S32768x1024 [1] [0] [0] [1] [] []

variable [Facts₀]

def dot_S32768x256_S256x3072_S32768x3072_1_0_0_1_n_n : DotDims S32768x256 S256x3072 S32768x3072 where
  lhsContracting := [1]
  rhsContracting := [0]
  lhsNonContracting := [0]
  rhsNonContracting := [1]
  lhsBatch := []
  rhsBatch := []
  wf := dot_S32768x256_S256x3072_S32768x3072_1_0_0_1_n_n_wf
def dot_S32768x1024_S1024x3072_S32768x3072_1_0_0_1_n_n : DotDims S32768x1024 S1024x3072 S32768x3072 where
  lhsContracting := [1]
  rhsContracting := [0]
  lhsNonContracting := [0]
  rhsNonContracting := [1]
  lhsBatch := []
  rhsBatch := []
  wf := dot_S32768x1024_S1024x3072_S32768x3072_1_0_0_1_n_n_wf
def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.KernelCell.lean ====
/-
  The run of the recurrent-cell program as one region between host operations, at any float instance.

  The program first lays three weight matrices side by side (twice) and three bias rows side by side, narrows four
  weight matrices, and then runs one region over 128 grid points. Point t is handed rows 256 t … 256 t + 255 of the
  state matrix and of the input matrix, and the five weight and bias arrays whole; it stores one 256 × 1024 block,
  a function of what it was handed, into rows 256 t … 256 t + 255 of the result. No argument array is written by
  any of this: the host operations write only their own results, the region only its result array.

  What this module proves: the program runs to the end from any memory, nothing faulting, the arguments unchanged,
  and the result array holds, block by block, that function of the blocks the points were handed.
-/
import proofs.«138564_j36833639531104_1_alg».proof.Proof.Gen.Kernel.Launch
import proofs.«138564_j36833639531104_1_alg».proof.Proof.Gen.Kernel.Skeleton
import proofs.«138564_j36833639531104_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core c's buffers hold when the region is entered: the launch memory after the seven host operations. -/
abbrev entry (c : Dev nD) (b : Ref sig .tc) : Buf (Elt F) ((c : Thread nD τ).loc b) :=
  StableHlo.after hostOps0 (fun b => m (c, b)) b

/-- None of the seven allocates. -/
theorem hostOps0_fresh : (hostOps0 : List (HloOp τ sig (Elt F))).Forall fun op => op.fresh = ∅ := by
  simp only [List.Forall]; repeat' constructor

/-- The program is those operations and then the region. -/
theorem hmain (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that is none of the seven results is found by the region as launched. -/
theorem entry_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6) :
    entry m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2.1,
      StableHlo.devRef_ne_of_ne hb.2.2.2.2.2.2⟩))

theorem entry_arg0 (c : Dev nD) : entry m c main_arg0 = m ((c : Thread nD τ).loc main_arg0) :=
  entry_of_not_written m c main_arg0 (by decide)
theorem entry_arg1 (c : Dev nD) : entry m c main_arg1 = m ((c : Thread nD τ).loc main_arg1) :=
  entry_of_not_written m c main_arg1 (by decide)
theorem entry_arg2 (c : Dev nD) : entry m c main_arg2 = m ((c : Thread nD τ).loc main_arg2) :=
  entry_of_not_written m c main_arg2 (by decide)
theorem entry_arg3 (c : Dev nD) : entry m c main_arg3 = m ((c : Thread nD τ).loc main_arg3) :=
  entry_of_not_written m c main_arg3 (by decide)
theorem entry_arg4 (c : Dev nD) : entry m c main_arg4 = m ((c : Thread nD τ).loc main_arg4) :=
  entry_of_not_written m c main_arg4 (by decide)
theorem entry_arg5 (c : Dev nD) : entry m c main_arg5 = m ((c : Thread nD τ).loc main_arg5) :=
  entry_of_not_written m c main_arg5 (by decide)
theorem entry_arg6 (c : Dev nD) : entry m c main_arg6 = m ((c : Thread nD τ).loc main_arg6) :=
  entry_of_not_written m c main_arg6 (by decide)
theorem entry_arg7 (c : Dev nD) : entry m c main_arg7 = m ((c : Thread nD τ).loc main_arg7) :=
  entry_of_not_written m c main_arg7 (by decide)
theorem entry_arg8 (c : Dev nD) : entry m c main_arg8 = m ((c : Thread nD τ).loc main_arg8) :=
  entry_of_not_written m c main_arg8 (by decide)
theorem entry_arg9 (c : Dev nD) : entry m c main_arg9 = m ((c : Thread nD τ).loc main_arg9) :=
  entry_of_not_written m c main_arg9 (by decide)
theorem entry_arg10 (c : Dev nD) : entry m c main_arg10 = m ((c : Thread nD τ).loc main_arg10) :=
  entry_of_not_written m c main_arg10 (by decide)
theorem entry_arg11 (c : Dev nD) : entry m c main_arg11 = m ((c : Thread nD τ).loc main_arg11) :=
  entry_of_not_written m c main_arg11 (by decide)
theorem entry_arg12 (c : Dev nD) : entry m c main_arg12 = m ((c : Thread nD τ).loc main_arg12) :=
  entry_of_not_written m c main_arg12 (by decide)
theorem entry_arg13 (c : Dev nD) : entry m c main_arg13 = m ((c : Thread nD τ).loc main_arg13) :=
  entry_of_not_written m c main_arg13 (by decide)

/-! ## The blocks the points are handed -/

/-- Window w's block at point t, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## What a point stores -/

abbrev rS : Rect S256x1024 := Rect.unit (s := S256x1024) ![0, 0] S256x1024.size inb_S256x1024_S256x1024_0_0
abbrev rX : Rect S256x256 := Rect.unit (s := S256x256) ![0, 0] S256x256.size inb_S256x256_S256x256_0_0
abbrev rU3 : Rect S256x3072 := Rect.unit (s := S256x3072) ![0, 0] S256x3072.size inb_S256x3072_S256x3072_0_0
abbrev rW3 : Rect S1024x3072 := Rect.unit (s := S1024x3072) ![0, 0] S1024x3072.size inb_S1024x3072_S1024x3072_0_0
abbrev rWh : Rect S1024x1024 := Rect.unit (s := S1024x1024) ![0, 0] S1024x1024.size inb_S1024x1024_S1024x1024_0_0
abbrev rb3 : Rect S1x3072 := Rect.unit (s := S1x3072) ![0, 0] S1x3072.size inb_S1x3072_S1x3072_0_0
abbrev rbh : Rect S1x1024 := Rect.unit (s := S1x1024) ![0, 0] S1x1024.size inb_S1x1024_S1x1024_0_0

/-- The output buffer after the body: its one store, of the cell's value on the eight loaded blocks, over the whole
    buffer. -/
def stored (x0 : Vec F S256x1024 .f32) (x1 : Vec F S256x256 .f32) (x2 : Vec F S256x3072 .bf16) (x3 : Vec F S1024x3072 .bf16)
    (x4 : Vec F S256x1024 .bf16) (x5 : Vec F S1024x1024 .bf16) (x6 : Vec F S1x3072 .f32) (x7 : Vec F S1x1024 .f32) :
    Vec F S256x1024 .f32 :=
  View.canon [⟨rS, k0_pay1 (View.ld x0 rS) (View.ld x1 rX) (View.ld x2 rU3) (View.ld x3 rW3) (View.ld x6 rb3)
    (View.ld x4 rS) (View.ld x5 rWh) (View.ld x7 rbh)⟩]

/-- The one store covers the buffer. -/
theorem stored_covers (p0 : Vec F S256x1024 .f32) (y : S256x1024.Idx) :
    ∃ pc ∈ ([⟨rS, p0⟩] : List (View.Piece (Elt F) S256x1024 .f32)), y ∈ pc.1.set :=
  View.cover_of_tiled [⟨rS, p0⟩] S256x1024.size (by rfl) y

/-! ## The body on its nine buffers -/

set_option maxHeartbeats 1000000 in
/-- The body, on whole buffers of which the first eight hold x0 … x7 and the ninth anything, ends with the eight as
    they were and the ninth at `stored x0 … x7`: eight loads, one unused load of the ninth, one store over it. -/
theorem body_triple (c : Dev nD) (E : Set ℕ) (i : grid0.Coords)
    (arg1 : Memref sig .tc .vmem S256x1024 .f32) (harg1 : arg1.IsWhole) (arg2 : Memref sig .tc .vmem S256x256 .f32) (harg2 : arg2.IsWhole)
    (arg3 : Memref sig .tc .vmem S256x3072 .bf16) (harg3 : arg3.IsWhole) (arg4 : Memref sig .tc .vmem S1024x3072 .bf16) (harg4 : arg4.IsWhole)
    (arg5 : Memref sig .tc .vmem S256x1024 .bf16) (harg5 : arg5.IsWhole) (arg6 : Memref sig .tc .vmem S1024x1024 .bf16) (harg6 : arg6.IsWhole)
    (arg7 : Memref sig .tc .vmem S1x3072 .f32) (harg7 : arg7.IsWhole) (arg8 : Memref sig .tc .vmem S1x1024 .f32) (harg8 : arg8.IsWhole)
    (arg9 : Memref sig .tc .vmem S256x1024 .f32) (harg9 : arg9.IsWhole)
    (x0 : Vec F S256x1024 .f32) (x1 : Vec F S256x256 .f32) (x2 : Vec F S256x3072 .bf16) (x3 : Vec F S1024x3072 .bf16)
    (x4 : Vec F S256x1024 .bf16) (x5 : Vec F S1024x1024 .bf16) (x6 : Vec F S1x3072 .f32) (x7 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (stored x0 x1 x2 x3 x4 x5 x6 x7)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (stored_covers _)

/-! ## The region's proof data -/

/-- On core c: the arrays as the region finds them; after the body at point t each input buffer holds its block and the
    output buffer what the body stored from the eight blocks; nothing else is kept between points. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => stored (blockAt m c 0 t) (blockAt m c 1 t) (blockAt m c 2 t) (blockAt m c 3 t) (blockAt m c 4 t)
        (blockAt m c 5 t) (blockAt m c 6 t) (blockAt m c 7 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t
    = stored (blockAt m c 0 t) (blockAt m c 1 t) (blockAt m c 2 t) (blockAt m c 3 t) (blockAt m c 4 t)
        (blockAt m c 5 t) (blockAt m c 6 t) (blockAt m c 7 t) := by dsimp only [dats]

/-! Each input buffer holds its window's block at every point, whether it was fetched there or only at the first
    point (the block index of a window that is not fetched again has not moved). -/
theorem held_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem held_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem held_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
theorem held_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
theorem held_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)
theorem held_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [A_eq]; try rfl) t d).trans
    (by unfold Dat.fetched Dat.blockOf blockAt; rw [A_eq]; try rfl)
theorem held_6 (c : Dev nD) (t : Fin cfg0.N) (d) : (dats m 0 c).before 6 t d = blockAt m c 6 t :=
  ((dats m 0 c).before_in_eq_fetched 6 rfl (fun _ => rfl) (fun _ _ _ => rfl)
    (fun t => by rw [after_6]; unfold Dat.blockOf blockAt; rw [A_eq]; try rfl) t d).trans
    (by unfold Dat.fetched Dat.blockOf blockAt; rw [A_eq]; try rfl)
theorem held_7 (c : Dev nD) (t : Fin cfg0.N) (d) : (dats m 0 c).before 7 t d = blockAt m c 7 t :=
  ((dats m 0 c).before_in_eq_fetched 7 rfl (fun _ => rfl) (fun _ _ _ => rfl)
    (fun t => by rw [after_7]; unfold Dat.blockOf blockAt; rw [A_eq]; try rfl) t d).trans
    (by unfold Dat.fetched Dat.blockOf blockAt; rw [A_eq]; try rfl)

/-! ## The body at a grid point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4, held_5, held_6, held_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ _ _ _ _ _ _ _ _ _ _ _ _ _ _ _ _ _ _ _ (blockAt m c 0 t) (blockAt m c 1 t) (blockAt m c 2 t)
    (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution from a memory with zero counters terminates; at the end every window's array holds what
    the blocks written back make of it and every other buffer what the region found. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- The same run with the result array named and each argument array read back as launched. -/
theorem run_named : θ_run defs (onTc (τ := τ) (main (F := F))) ⟨m, fun _ => 0, ρ⟩ (fun r => ∀ c : Dev nD,
      r.2.mem ((c.tc : Thread nD τ).loc main_v7) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1 8,
      ((h c).1 0).trans (((dats m 0 c).arrAt_in 0 rfl _).trans ((A_eq m c 0).trans (entry_arg0 m c))),
      ((h c).1 1).trans (((dats m 0 c).arrAt_in 1 rfl _).trans ((A_eq m c 1).trans (entry_arg1 m c))),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).1 7).trans (((dats m 0 c).arrAt_in 7 rfl _).trans ((A_eq m c 7).trans (entry_arg13 m c)))⟩)
    (run_main m ρ)

/-- The frame: the program runs to the end and leaves its fourteen arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_named m ρ)

end Cert.Kernel.Cell

end
-- ==== Proof.KernelIdealCell.lean ====
/-
  The run of the recurrent-cell program as one region between host operations, at any float instance.

  The program first lays three weight matrices side by side (twice) and three bias rows side by side, narrows four
  weight matrices, and then runs one region over 128 grid points. Point t is handed rows 256 t … 256 t + 255 of the
  state matrix and of the input matrix, and the five weight and bias arrays whole; it stores one 256 × 1024 block,
  a function of what it was handed, into rows 256 t … 256 t + 255 of the result. No argument array is written by
  any of this: the host operations write only their own results, the region only its result array.

  What this module proves: the program runs to the end from any memory, nothing faulting, the arguments unchanged,
  and the result array holds, block by block, that function of the blocks the points were handed.
-/
import proofs.«138564_j36833639531104_1_alg».proof.Proof.Gen.KernelIdeal.Launch
import proofs.«138564_j36833639531104_1_alg».proof.Proof.Gen.KernelIdeal.Skeleton
import proofs.«138564_j36833639531104_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core c's buffers hold when the region is entered: the launch memory after the seven host operations. -/
abbrev entry (c : Dev nD) (b : Ref sig .tc) : Buf (Elt F) ((c : Thread nD τ).loc b) :=
  StableHlo.after hostOps0 (fun b => m (c, b)) b

/-- None of the seven allocates. -/
theorem hostOps0_fresh : (hostOps0 : List (HloOp τ sig (Elt F))).Forall fun op => op.fresh = ∅ := by
  simp only [List.Forall]; repeat' constructor

/-- The program is those operations and then the region. -/
theorem hmain (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that is none of the seven results is found by the region as launched. -/
theorem entry_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6) :
    entry m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2.1,
      StableHlo.devRef_ne_of_ne hb.2.2.2.2.2.2⟩))

theorem entry_arg0 (c : Dev nD) : entry m c main_arg0 = m ((c : Thread nD τ).loc main_arg0) :=
  entry_of_not_written m c main_arg0 (by decide)
theorem entry_arg1 (c : Dev nD) : entry m c main_arg1 = m ((c : Thread nD τ).loc main_arg1) :=
  entry_of_not_written m c main_arg1 (by decide)
theorem entry_arg2 (c : Dev nD) : entry m c main_arg2 = m ((c : Thread nD τ).loc main_arg2) :=
  entry_of_not_written m c main_arg2 (by decide)
theorem entry_arg3 (c : Dev nD) : entry m c main_arg3 = m ((c : Thread nD τ).loc main_arg3) :=
  entry_of_not_written m c main_arg3 (by decide)
theorem entry_arg4 (c : Dev nD) : entry m c main_arg4 = m ((c : Thread nD τ).loc main_arg4) :=
  entry_of_not_written m c main_arg4 (by decide)
theorem entry_arg5 (c : Dev nD) : entry m c main_arg5 = m ((c : Thread nD τ).loc main_arg5) :=
  entry_of_not_written m c main_arg5 (by decide)
theorem entry_arg6 (c : Dev nD) : entry m c main_arg6 = m ((c : Thread nD τ).loc main_arg6) :=
  entry_of_not_written m c main_arg6 (by decide)
theorem entry_arg7 (c : Dev nD) : entry m c main_arg7 = m ((c : Thread nD τ).loc main_arg7) :=
  entry_of_not_written m c main_arg7 (by decide)
theorem entry_arg8 (c : Dev nD) : entry m c main_arg8 = m ((c : Thread nD τ).loc main_arg8) :=
  entry_of_not_written m c main_arg8 (by decide)
theorem entry_arg9 (c : Dev nD) : entry m c main_arg9 = m ((c : Thread nD τ).loc main_arg9) :=
  entry_of_not_written m c main_arg9 (by decide)
theorem entry_arg10 (c : Dev nD) : entry m c main_arg10 = m ((c : Thread nD τ).loc main_arg10) :=
  entry_of_not_written m c main_arg10 (by decide)
theorem entry_arg11 (c : Dev nD) : entry m c main_arg11 = m ((c : Thread nD τ).loc main_arg11) :=
  entry_of_not_written m c main_arg11 (by decide)
theorem entry_arg12 (c : Dev nD) : entry m c main_arg12 = m ((c : Thread nD τ).loc main_arg12) :=
  entry_of_not_written m c main_arg12 (by decide)
theorem entry_arg13 (c : Dev nD) : entry m c main_arg13 = m ((c : Thread nD τ).loc main_arg13) :=
  entry_of_not_written m c main_arg13 (by decide)

/-! ## The blocks the points are handed -/

/-- Window w's block at point t, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## What a point stores -/

abbrev rS : Rect S256x1024 := Rect.unit (s := S256x1024) ![0, 0] S256x1024.size inb_S256x1024_S256x1024_0_0
abbrev rX : Rect S256x256 := Rect.unit (s := S256x256) ![0, 0] S256x256.size inb_S256x256_S256x256_0_0
abbrev rU3 : Rect S256x3072 := Rect.unit (s := S256x3072) ![0, 0] S256x3072.size inb_S256x3072_S256x3072_0_0
abbrev rW3 : Rect S1024x3072 := Rect.unit (s := S1024x3072) ![0, 0] S1024x3072.size inb_S1024x3072_S1024x3072_0_0
abbrev rWh : Rect S1024x1024 := Rect.unit (s := S1024x1024) ![0, 0] S1024x1024.size inb_S1024x1024_S1024x1024_0_0
abbrev rb3 : Rect S1x3072 := Rect.unit (s := S1x3072) ![0, 0] S1x3072.size inb_S1x3072_S1x3072_0_0
abbrev rbh : Rect S1x1024 := Rect.unit (s := S1x1024) ![0, 0] S1x1024.size inb_S1x1024_S1x1024_0_0

/-- The output buffer after the body: its one store, of the cell's value on the eight loaded blocks, over the whole
    buffer. -/
def stored (x0 : Vec F S256x1024 .f32) (x1 : Vec F S256x256 .f32) (x2 : Vec F S256x3072 .bf16) (x3 : Vec F S1024x3072 .bf16)
    (x4 : Vec F S256x1024 .bf16) (x5 : Vec F S1024x1024 .bf16) (x6 : Vec F S1x3072 .f32) (x7 : Vec F S1x1024 .f32) :
    Vec F S256x1024 .f32 :=
  View.canon [⟨rS, k0_pay1 (View.ld x0 rS) (View.ld x1 rX) (View.ld x2 rU3) (View.ld x3 rW3) (View.ld x6 rb3)
    (View.ld x4 rS) (View.ld x5 rWh) (View.ld x7 rbh)⟩]

/-- The one store covers the buffer. -/
theorem stored_covers (p0 : Vec F S256x1024 .f32) (y : S256x1024.Idx) :
    ∃ pc ∈ ([⟨rS, p0⟩] : List (View.Piece (Elt F) S256x1024 .f32)), y ∈ pc.1.set :=
  View.cover_of_tiled [⟨rS, p0⟩] S256x1024.size (by rfl) y

/-! ## The body on its nine buffers -/

set_option maxHeartbeats 1000000 in
/-- The body, on whole buffers of which the first eight hold x0 … x7 and the ninth anything, ends with the eight as
    they were and the ninth at `stored x0 … x7`: eight loads, one unused load of the ninth, one store over it. -/
theorem body_triple (c : Dev nD) (E : Set ℕ) (i : grid0.Coords)
    (arg1 : Memref sig .tc .vmem S256x1024 .f32) (harg1 : arg1.IsWhole) (arg2 : Memref sig .tc .vmem S256x256 .f32) (harg2 : arg2.IsWhole)
    (arg3 : Memref sig .tc .vmem S256x3072 .bf16) (harg3 : arg3.IsWhole) (arg4 : Memref sig .tc .vmem S1024x3072 .bf16) (harg4 : arg4.IsWhole)
    (arg5 : Memref sig .tc .vmem S256x1024 .bf16) (harg5 : arg5.IsWhole) (arg6 : Memref sig .tc .vmem S1024x1024 .bf16) (harg6 : arg6.IsWhole)
    (arg7 : Memref sig .tc .vmem S1x3072 .f32) (harg7 : arg7.IsWhole) (arg8 : Memref sig .tc .vmem S1x1024 .f32) (harg8 : arg8.IsWhole)
    (arg9 : Memref sig .tc .vmem S256x1024 .f32) (harg9 : arg9.IsWhole)
    (x0 : Vec F S256x1024 .f32) (x1 : Vec F S256x256 .f32) (x2 : Vec F S256x3072 .bf16) (x3 : Vec F S1024x3072 .bf16)
    (x4 : Vec F S256x1024 .bf16) (x5 : Vec F S1024x1024 .bf16) (x6 : Vec F S1x3072 .f32) (x7 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (stored x0 x1 x2 x3 x4 x5 x6 x7)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (stored_covers _)

/-! ## The region's proof data -/

/-- On core c: the arrays as the region finds them; after the body at point t each input buffer holds its block and the
    output buffer what the body stored from the eight blocks; nothing else is kept between points. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => stored (blockAt m c 0 t) (blockAt m c 1 t) (blockAt m c 2 t) (blockAt m c 3 t) (blockAt m c 4 t)
        (blockAt m c 5 t) (blockAt m c 6 t) (blockAt m c 7 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t
    = stored (blockAt m c 0 t) (blockAt m c 1 t) (blockAt m c 2 t) (blockAt m c 3 t) (blockAt m c 4 t)
        (blockAt m c 5 t) (blockAt m c 6 t) (blockAt m c 7 t) := by dsimp only [dats]

/-! Each input buffer holds its window's block at every point, whether it was fetched there or only at the first
    point (the block index of a window that is not fetched again has not moved). -/
theorem held_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem held_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem held_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
theorem held_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
theorem held_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)
theorem held_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [A_eq]; try rfl) t d).trans
    (by unfold Dat.fetched Dat.blockOf blockAt; rw [A_eq]; try rfl)
theorem held_6 (c : Dev nD) (t : Fin cfg0.N) (d) : (dats m 0 c).before 6 t d = blockAt m c 6 t :=
  ((dats m 0 c).before_in_eq_fetched 6 rfl (fun _ => rfl) (fun _ _ _ => rfl)
    (fun t => by rw [after_6]; unfold Dat.blockOf blockAt; rw [A_eq]; try rfl) t d).trans
    (by unfold Dat.fetched Dat.blockOf blockAt; rw [A_eq]; try rfl)
theorem held_7 (c : Dev nD) (t : Fin cfg0.N) (d) : (dats m 0 c).before 7 t d = blockAt m c 7 t :=
  ((dats m 0 c).before_in_eq_fetched 7 rfl (fun _ => rfl) (fun _ _ _ => rfl)
    (fun t => by rw [after_7]; unfold Dat.blockOf blockAt; rw [A_eq]; try rfl) t d).trans
    (by unfold Dat.fetched Dat.blockOf blockAt; rw [A_eq]; try rfl)

/-! ## The body at a grid point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4, held_5, held_6, held_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ _ _ _ _ _ _ _ _ _ _ _ _ _ _ _ _ _ _ _ (blockAt m c 0 t) (blockAt m c 1 t) (blockAt m c 2 t)
    (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution from a memory with zero counters terminates; at the end every window's array holds what
    the blocks written back make of it and every other buffer what the region found. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- The same run with the result array named and each argument array read back as launched. -/
theorem run_named : θ_run defs (onTc (τ := τ) (main (F := F))) ⟨m, fun _ => 0, ρ⟩ (fun r => ∀ c : Dev nD,
      r.2.mem ((c.tc : Thread nD τ).loc main_v7) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1 8,
      ((h c).1 0).trans (((dats m 0 c).arrAt_in 0 rfl _).trans ((A_eq m c 0).trans (entry_arg0 m c))),
      ((h c).1 1).trans (((dats m 0 c).arrAt_in 1 rfl _).trans ((A_eq m c 1).trans (entry_arg1 m c))),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).1 7).trans (((dats m 0 c).arrAt_in 7 rfl _).trans ((A_eq m c 7).trans (entry_arg13 m c)))⟩)
    (run_main m ρ)

/-- The frame: the program runs to the end and leaves its fourteen arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_named m ρ)

end Cert.KernelIdeal.Cell

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.LibRowProducts.lean ====
/-
  More layers of a row-wise network read row by row, at the exact instance: the plain product of a matrix of rows with a
  weight matrix, a bias row repeated down the rows, and the cell built from them in which every gate is a hyperbolic
  tangent,

      g = tanh (X·U₃ + S·W₃ + b₃)        three bands of h columns: z, γ, r
      c = tanh (X·U_h + (S ∘ r)·W_h + b_h)
      result = (1 − γ) ∘ c + z ∘ S .

  Row p of every matrix here depends on row p of the matrices S and X only, so a block of rows of the result is the
  same expression of that block of rows of S and X.
-/
import proofs.«138564_j36833639531104_1_alg».proof.Proof.LibRowLayers

noncomputable section

open scoped BigOperators

namespace RowLayers

open Idealize.ShloMosaic Idealize.ShloMosaic.ValueIdx

variable {m k n : ℕ}

/-- An m×k matrix times a k×n matrix on the matrix unit, accumulated into the zero splat, at (a, b): the sum over the
    contracted coordinate of the products of the entries. -/
theorem matmulPlain_apply {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  refine Eq.trans ?_ (StackMember.dotGeneral_plain_apply prec A B a b)
  exact (Ideal.dotGeneral_apply (DotDims.plain m k n) prec _ A B (ix2 a b)).symm

section RowsMore

variable {mb M : ℕ} {σ : Fin mb → Fin M}

/-- The rows of a block times a weight matrix are the block's rows of the whole matrix times the same weights: the
    matrix unit's product into a zero accumulator against the host's plain product. -/
theorem Rows.product {k n : ℕ} {φ₁ φ₂ φ₃ φ₄ : FTy} {x : FVec Ideal ⟨2, ![mb, k]⟩ φ₁} {X : FVec Ideal ⟨2, ![M, k]⟩ φ₃}
    (hx : Rows σ x X) {w : FVec Ideal ⟨2, ![k, n]⟩ φ₂} {W : FVec Ideal ⟨2, ![k, n]⟩ φ₄}
    (hw : ∀ i, (w i : EReal) = W i) :
    Rows σ (matmul (DotDims.plain mb k n) none x w (constant ⟨2, ![mb, n]⟩ .f32 0x00000000#32))
      (Host.dotGeneral (DotDims.plain M k n) none X W) := fun p c => by
  rw [matmulPlain_apply, StackMember.dotGeneral_plain_apply]
  refine Finset.sum_congr rfl fun j _ => ?_
  rw [hx p j, hw]

/-- One row repeated down the block against the same row repeated down the whole matrix. -/
theorem Rows.rowDown {n : ℕ} (hbc : (⟨2, ![1, n]⟩ : Shape).Broadcasts ⟨2, ![mb, n]⟩)
    (h01 : (⟨2, ![1, n]⟩ : Shape).BroadcastsInDim ⟨2, ![M, n]⟩ ![0, 1]) (v : (⟨2, ![1, n]⟩ : Shape).Idx → EReal) :
    Rows σ (broadcastTo ⟨2, ![mb, n]⟩ v hbc) (broadcastInDim ⟨2, ![M, n]⟩ ![0, 1] h01 v) := fun p c => by
  rw [broadcastTo_1b_ab_apply, rowDown_apply]

/-- The same with the row first cast to its own shape. -/
theorem Rows.rowDownCast {n : ℕ} (hsc : (⟨2, ![1, n]⟩ : Shape).ShapeCasts ⟨2, ![1, n]⟩)
    (hbc : (⟨2, ![1, n]⟩ : Shape).Broadcasts ⟨2, ![mb, n]⟩)
    (h01 : (⟨2, ![1, n]⟩ : Shape).BroadcastsInDim ⟨2, ![M, n]⟩ ![0, 1]) (v : (⟨2, ![1, n]⟩ : Shape).Idx → EReal) :
    Rows σ (broadcastTo ⟨2, ![mb, n]⟩ (shapeCast ⟨2, ![1, n]⟩ v hsc) hbc) (broadcastInDim ⟨2, ![M, n]⟩ ![0, 1] h01 v) := by
  rw [shapeCast_self]
  exact Rows.rowDown hbc h01 v

/-- tanh (x·u + s·w + bias): two products on the matrix unit, added, a bias added, against the host's. -/
theorem Rows.tanhAffine2 {kx ks n : ℕ} {φ₁ φ₂ φ₃ φ₄ : FTy}
    {x : FVec Ideal ⟨2, ![mb, kx]⟩ φ₁} {X : FVec Ideal ⟨2, ![M, kx]⟩ .f32} (hx : Rows σ x X)
    {u : FVec Ideal ⟨2, ![kx, n]⟩ φ₂} {U : FVec Ideal ⟨2, ![kx, n]⟩ .f32} (hu : ∀ i, (u i : EReal) = U i)
    {s : FVec Ideal ⟨2, ![mb, ks]⟩ φ₃} {S : FVec Ideal ⟨2, ![M, ks]⟩ .f32} (hs : Rows σ s S)
    {w : FVec Ideal ⟨2, ![ks, n]⟩ φ₄} {W : FVec Ideal ⟨2, ![ks, n]⟩ .f32} (hw : ∀ i, (w i : EReal) = W i)
    {bt : FVec Ideal ⟨2, ![mb, n]⟩ .f32} {bT : FVec Ideal ⟨2, ![M, n]⟩ .f32} (hb : Rows σ bt bT) :
    Rows σ
      (Idealize.ShloMosaic.tanh (Idealize.ShloMosaic.addf (Idealize.ShloMosaic.addf
        (matmul (DotDims.plain mb kx n) none x u (constant ⟨2, ![mb, n]⟩ .f32 0x00000000#32))
        (matmul (DotDims.plain mb ks n) none s w (constant ⟨2, ![mb, n]⟩ .f32 0x00000000#32))) bt))
      (Host.tanh (Idealize.ShloMosaic.addf (Idealize.ShloMosaic.addf
        (Host.dotGeneral (DotDims.plain M kx n) none X U) (Host.dotGeneral (DotDims.plain M ks n) none S W)) bT)) :=
  Rows.tanh (Rows.addf (Rows.addf (Rows.product hx hu) (Rows.product hs hw)) hb)

end RowsMore

/-! ## The whole-array cell, named -/

section WholeMore

variable {F : FTy → Type} [FloatOps F] {M : ℕ}

/-- tanh (X·U + S·W + b), the bias row added to every row. -/
abbrev Whole.tanhAffine2 {kx ks n : ℕ} (h01 : (⟨2, ![1, n]⟩ : Shape).BroadcastsInDim ⟨2, ![M, n]⟩ ![0, 1])
    (X : FVec F ⟨2, ![M, kx]⟩ .f32) (U : FVec F ⟨2, ![kx, n]⟩ .f32) (S : FVec F ⟨2, ![M, ks]⟩ .f32)
    (W : FVec F ⟨2, ![ks, n]⟩ .f32) (b : FVec F ⟨2, ![1, n]⟩ .f32) : FVec F ⟨2, ![M, n]⟩ .f32 :=
  Host.tanh (addf (addf (Host.dotGeneral (DotDims.plain M kx n) none X U) (Host.dotGeneral (DotDims.plain M ks n) none S W))
    (broadcastInDim ⟨2, ![M, n]⟩ ![0, 1] h01 b))

/-- The cell with tanh gates: g = tanh (X·U₃ + S·W₃ + b₃) cut into the bands z (from column 0), γ (from o1) and r
    (from o2); c = tanh (X·U_h + (S ∘ r)·W_h + b_h); the result (1 − γ) ∘ c + z ∘ S. -/
abbrev Whole.tanhCell {d h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (h3b : (⟨2, ![1, h3]⟩ : Shape).BroadcastsInDim ⟨2, ![M, h3]⟩ ![0, 1])
    (h1b : (⟨2, ![1, h]⟩ : Shape).BroadcastsInDim ⟨2, ![M, h]⟩ ![0, 1])
    (S : FVec F ⟨2, ![M, h]⟩ .f32) (X : FVec F ⟨2, ![M, d]⟩ .f32)
    (U3 : FVec F ⟨2, ![d, h3]⟩ .f32) (W3 : FVec F ⟨2, ![h, h3]⟩ .f32) (b3 : FVec F ⟨2, ![1, h3]⟩ .f32)
    (Uh : FVec F ⟨2, ![d, h]⟩ .f32) (Wh : FVec F ⟨2, ![h, h]⟩ .f32) (bh : FVec F ⟨2, ![1, h]⟩ .f32) : FVec F ⟨2, ![M, h]⟩ .f32 :=
  addf
    (mulf (subf (broadcastInDim ⟨2, ![M, h]⟩ ![] hb (constant (F := F) ⟨0, ![]⟩ .f32 0x3F800000#32))
        (extractStridedSlice ⟨2, ![M, h]⟩ ![0, o1] (Whole.tanhAffine2 h3b X U3 S W3 b3) s1))
      (Whole.tanhAffine2 h1b X Uh (mulf S (extractStridedSlice ⟨2, ![M, h]⟩ ![0, o2] (Whole.tanhAffine2 h3b X U3 S W3 b3) s2)) Wh bh))
    (mulf (extractStridedSlice ⟨2, ![M, h]⟩ ![0, 0] (Whole.tanhAffine2 h3b X U3 S W3 b3) s0) S)

end WholeMore

end RowLayers

end
-- ==== Proof.CellSpec.lean ====
/-
  The recurrent cell of this certificate as one function of its fourteen argument arrays, over whole arrays:

      U₃ = [Uz | Ug | Ur],  W₃ = [Wz | Wg | Wr],  b₃ = [bz | bg | br]
      g = tanh (X·U₃ + S·W₃ + b₃),   z, γ, r its three bands of 1024 columns
      c = tanh (X·U_h + (S ∘ r)·W_h + b_h)
      result = (1 − γ) ∘ c + z ∘ S        on 32768 rows.
-/
import proofs.«138564_j36833639531104_1_alg».proof.Proof.LibRowProducts

noncomputable section

namespace CellSpec

open Idealize.ShloMosaic RowLayers

abbrev Rows1024 : Shape := ⟨2, ![32768, 1024]⟩
abbrev Rows256 : Shape := ⟨2, ![32768, 256]⟩
abbrev Rows3072 : Shape := ⟨2, ![32768, 3072]⟩
abbrev In1024 : Shape := ⟨2, ![256, 1024]⟩
abbrev In3072 : Shape := ⟨2, ![256, 3072]⟩
abbrev Sq1024 : Shape := ⟨2, ![1024, 1024]⟩
abbrev Sq3072 : Shape := ⟨2, ![1024, 3072]⟩
abbrev Row1024 : Shape := ⟨2, ![1, 1024]⟩
abbrev Row3072 : Shape := ⟨2, ![1, 3072]⟩

theorem catIn : Shape.Concatenates [In1024, In1024, In1024] In3072 1 := by decide
theorem catSq : Shape.Concatenates [Sq1024, Sq1024, Sq1024] Sq3072 1 := by decide
theorem catRow : Shape.Concatenates [Row1024, Row1024, Row1024] Row3072 1 := by decide
theorem band0 : Rows3072.Slices ![0, 0] Rows1024 := by decide
theorem band1 : Rows3072.Slices ![0, 1024] Rows1024 := by decide
theorem band2 : Rows3072.Slices ![0, 2048] Rows1024 := by decide
theorem splat : (⟨0, ![]⟩ : Shape).BroadcastsInDim Rows1024 ![] := by decide
theorem down3072 : Row3072.BroadcastsInDim Rows3072 ![0, 1] := by decide
theorem down1024 : Row1024.BroadcastsInDim Rows1024 ![0, 1] := by decide

variable {F : FTy → Type} [FloatOps F]

/-- The cell on whole arrays, from the three-band weights already laid side by side. -/
abbrev cellOfBands (S : FVec F Rows1024 .f32) (X : FVec F Rows256 .f32) (U3 : FVec F In3072 .f32) (W3 : FVec F Sq3072 .f32)
    (b3 : FVec F Row3072 .f32) (Uh : FVec F In1024 .f32) (Wh : FVec F Sq1024 .f32) (bh : FVec F Row1024 .f32) :
    FVec F Rows1024 .f32 :=
  Whole.tanhCell (M := 32768) (d := 256) (h := 1024) (h3 := 3072) 1024 2048 band0 band1 band2 splat down3072 down1024
    S X U3 W3 b3 Uh Wh bh

/-- The cell as a function of the fourteen arguments. -/
abbrev cell (S : FVec F Rows1024 .f32) (X : FVec F Rows256 .f32) (Uz Ug Ur Uh : FVec F In1024 .f32)
    (Wz Wg Wr Wh : FVec F Sq1024 .f32) (bz bg br bh : FVec F Row1024 .f32) : FVec F Rows1024 .f32 :=
  cellOfBands S X (concatenate In3072 1 [⟨In1024, Uz⟩, ⟨In1024, Ug⟩, ⟨In1024, Ur⟩] catIn)
    (concatenate Sq3072 1 [⟨Sq1024, Wz⟩, ⟨Sq1024, Wg⟩, ⟨Sq1024, Wr⟩] catSq)
    (concatenate Row3072 1 [⟨Row1024, bz⟩, ⟨Row1024, bg⟩, ⟨Row1024, br⟩] catRow) Uh Wh bh

end CellSpec

end
-- ==== Proof.KernelIdealValue.lean ====
/-
  What the region's result array holds at the end, at the exact instance: the cell of the fourteen argument arrays.

  Point t's block of the state matrix is rows 256 t … 256 t + 255 of it, and likewise of the input matrix; the five weight
  and bias windows are the whole arrays the host operations built, which at the exact instance are the side-by-side
  arrays themselves (narrowing a float format changes no value). Every operation of the body acts row by row, so what
  point t stores is rows 256 t … 256 t + 255 of the whole-array cell; the 128 blocks tile the 32768 rows.
-/
import proofs.«138564_j36833639531104_1_alg».proof.Proof.KernelIdealCell
import proofs.«138564_j36833639531104_1_alg».proof.Proof.CellSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.CellValue

open Cert.KernelIdeal Cert.KernelIdeal.Gen Cert.KernelIdeal.Cell RowLayers CellSpec

variable (m : (ℓ : Loc nD τ sig) → Buf (Elt Ideal) ℓ) (ρ : Dev nD → PrngReg)

theorem hz : (![0, 0] : Fin 2 → Nat) = fun _ => 0 := funext fun a => by fin_cases a <;> rfl

/-! ## The body's value, row by row -/

/-- The body's stored value on a block of rows is those rows of the whole-array cell. -/
theorem pay_rows {σ : Fin 256 → Fin 32768}
    {v0 : FVec Ideal S256x1024 .f32} {S : FVec Ideal Rows1024 .f32} (hS : Rows σ v0 S)
    {v1 : FVec Ideal S256x256 .f32} {X : FVec Ideal Rows256 .f32} (hX : Rows σ v1 X)
    {u3 : FVec Ideal S256x3072 .bf16} {U3 : FVec Ideal In3072 .f32} (hu3 : ∀ i, (u3 i : EReal) = U3 i)
    {w3 : FVec Ideal S1024x3072 .bf16} {W3 : FVec Ideal Sq3072 .f32} (hw3 : ∀ i, (w3 i : EReal) = W3 i)
    {b3t : FVec Ideal S1x3072 .f32} {b3 : FVec Ideal Row3072 .f32} (hb3 : b3t = b3)
    {uh : FVec Ideal S256x1024 .bf16} {Uh : FVec Ideal In1024 .f32} (huh : ∀ i, (uh i : EReal) = Uh i)
    {wh : FVec Ideal S1024x1024 .bf16} {Wh : FVec Ideal Sq1024 .f32} (hwh : ∀ i, (wh i : EReal) = Wh i)
    {bht : FVec Ideal S1x1024 .f32} {bh : FVec Ideal Row1024 .f32} (hbh : bht = bh) :
    Rows σ (k0_pay1 (F := Ideal) v0 v1 u3 w3 b3t uh wh bht) (cellOfBands (F := Ideal) S X U3 W3 b3 Uh Wh bh) := by
  subst hb3 hbh
  have eu3 : ∀ i, (shapeCast S256x3072 u3 shapeCasts_S256x3072_S256x3072 i : EReal) = U3 i := fun i => by
    rw [shapeCast_self]; exact hu3 i
  have ew3 : ∀ i, (shapeCast S1024x3072 w3 shapeCasts_S1024x3072_S1024x3072 i : EReal) = W3 i := fun i => by
    rw [shapeCast_self]; exact hw3 i
  have euh : ∀ i, (shapeCast S256x1024 uh shapeCasts_S256x1024_S256x1024 i : EReal) = Uh i := fun i => by
    rw [shapeCast_self]; exact huh i
  have ewh : ∀ i, (shapeCast S1024x1024 wh shapeCasts_S1024x1024_S1024x1024 i : EReal) = Wh i := fun i => by
    rw [shapeCast_self]; exact hwh i
  have hg := Rows.tanhAffine2 (σ := σ) (φ₂ := .bf16) (φ₄ := .bf16) (Rows.truncf (ψ := .bf16) bitsLt_bf16_f32 hX) eu3
    (Rows.truncf (ψ := .bf16) bitsLt_bf16_f32 hS) ew3
    (Rows.rowDownCast (σ := σ) shapeCasts_S1x3072_S1x3072 broadcasts_S1x3072_S256x3072 down3072 b3t)
  have hc := Rows.tanhAffine2 (σ := σ) (φ₂ := .bf16) (φ₄ := .bf16) (Rows.truncf (ψ := .bf16) bitsLt_bf16_f32 hX) euh
    (Rows.truncf (ψ := .bf16) bitsLt_bf16_f32 (Rows.mulf hS (Rows.sliceCols 2048 slices_S256x3072_o0_2048_S256x1024 band2 hg))) ewh
    (Rows.rowDown (σ := σ) broadcasts_S1x1024_S256x1024 down1024 bht)
  unfold k0_pay1
  exact Rows.addf
    (Rows.mulf (Rows.oneMinus splat (Rows.sliceCols 1024 slices_S256x3072_o0_1024_S256x1024 band1 hg)) hc)
    (Rows.mulf (Rows.sliceCols 0 slices_S256x3072_o0_0_S256x1024 band0 hg) hS)

/-! ## The arrays the region finds -/

abbrev U3 (c : Dev nD) : FVec Ideal In3072 .f32 :=
  concatenate In3072 1 [⟨In1024, (m ((c : Thread nD τ).loc main_arg2))⟩, ⟨In1024, (m ((c : Thread nD τ).loc main_arg3))⟩, ⟨In1024, (m ((c : Thread nD τ).loc main_arg4))⟩] catIn
abbrev W3 (c : Dev nD) : FVec Ideal Sq3072 .f32 :=
  concatenate Sq3072 1 [⟨Sq1024, (m ((c : Thread nD τ).loc main_arg6))⟩, ⟨Sq1024, (m ((c : Thread nD τ).loc main_arg7))⟩, ⟨Sq1024, (m ((c : Thread nD τ).loc main_arg8))⟩] catSq
abbrev b3 (c : Dev nD) : FVec Ideal Row3072 .f32 :=
  concatenate Row3072 1 [⟨Row1024, (m ((c : Thread nD τ).loc main_arg10))⟩, ⟨Row1024, (m ((c : Thread nD τ).loc main_arg11))⟩, ⟨Row1024, (m ((c : Thread nD τ).loc main_arg12))⟩] catRow

/-- The narrowed side-by-side input weights are the side-by-side input weights. -/
theorem entry_v1 (c : Dev nD) : (entry m c main_v1 : S256x3072.Idx → EReal) = U3 m c := by
  dsimp only [entry, hostOps0]; after_results; rfl
theorem entry_v3 (c : Dev nD) : (entry m c main_v3 : S1024x3072.Idx → EReal) = W3 m c := by
  dsimp only [entry, hostOps0]; after_results; rfl
theorem entry_v4 (c : Dev nD) : (entry m c main_v4 : S1x3072.Idx → EReal) = b3 m c := by
  dsimp only [entry, hostOps0]; after_results; rfl
theorem entry_v5 (c : Dev nD) : (entry m c main_v5 : S256x1024.Idx → EReal) = (m ((c : Thread nD τ).loc main_arg5)) := by
  dsimp only [entry, hostOps0]; after_results; rfl
theorem entry_v6 (c : Dev nD) : (entry m c main_v6 : S1024x1024.Idx → EReal) = (m ((c : Thread nD τ).loc main_arg9)) := by
  dsimp only [entry, hostOps0]; after_results; rfl

/-! ## The blocks as rows of the arrays -/

/-- Where each window's block sits: the two row windows and the result at block row t, the five others at the origin. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- Row p of point t's blocks is row 256 t + p of the arrays. -/
def rowOf (t : Fin cfg0.N) (p : Fin 256) : Fin 32768 :=
  ⟨256 * t.val + p.val, by have h1 := t.isLt; have hN : cfg0.N = 128 := N_0; have h2 := p.isLt; omega⟩

abbrev sBlock (c : Dev nD) (t : Fin cfg0.N) : FVec Ideal S256x1024 .f32 := blockAt m c 0 t
abbrev xBlock (c : Dev nD) (t : Fin cfg0.N) : FVec Ideal S256x256 .f32 := blockAt m c 1 t
abbrev u3Block (c : Dev nD) (t : Fin cfg0.N) : FVec Ideal S256x3072 .bf16 := blockAt m c 2 t
abbrev w3Block (c : Dev nD) (t : Fin cfg0.N) : FVec Ideal S1024x3072 .bf16 := blockAt m c 3 t
abbrev uhBlock (c : Dev nD) (t : Fin cfg0.N) : FVec Ideal S256x1024 .bf16 := blockAt m c 4 t
abbrev whBlock (c : Dev nD) (t : Fin cfg0.N) : FVec Ideal S1024x1024 .bf16 := blockAt m c 5 t
abbrev b3Block (c : Dev nD) (t : Fin cfg0.N) : FVec Ideal S1x3072 .f32 := blockAt m c 6 t
abbrev bhBlock (c : Dev nD) (t : Fin cfg0.N) : FVec Ideal S1x1024 .f32 := blockAt m c 7 t

theorem sBlock_rows (c : Dev nD) (t : Fin cfg0.N) : Rows (rowOf t) (sBlock m c t) (m ((c : Thread nD τ).loc main_arg0)) := fun p q => by
  obtain ⟨⟨e0, e1⟩, -⟩ := index_facts t
  unfold sBlock blockAt
  rw [View.read_apply]
  show entry m c main_arg0 _ = _
  rw [entry_arg0]
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 1024 + 1 * q.val = q.val; rw [e1]; omega

theorem xBlock_rows (c : Dev nD) (t : Fin cfg0.N) : Rows (rowOf t) (xBlock m c t) (m ((c : Thread nD τ).loc main_arg1)) := fun p q => by
  obtain ⟨-, ⟨e0, e1⟩, -⟩ := index_facts t
  unfold xBlock blockAt
  rw [View.read_apply]
  show entry m c main_arg1 _ = _
  rw [entry_arg1]
  congr 1
  funext a
  apply Fin.ext
  match a with
  | ⟨0, _⟩ => show win0_1.index t (0 : Fin 2) * 256 + 1 * p.val = 256 * t.val + p.val; rw [e0]; omega
  | ⟨1, _⟩ => show win0_1.index t (1 : Fin 2) * 256 + 1 * q.val = q.val; rw [e1]; omega

/-! Each of the five whole windows is the array the region finds, and that array is the side-by-side (or plain) array. -/
theorem u3Block_eq (c : Dev nD) (t : Fin cfg0.N) (i : S256x3072.Idx) : (u3Block m c t i : EReal) = U3 m c i := by
  obtain ⟨-, -, ⟨e0, e1⟩, -⟩ := index_facts t
  unfold u3Block blockAt
  rw [View.read_apply]
  show entry m c main_v1 _ = _
  rw [entry_v1]
  congr 1
  funext a
  apply Fin.ext
  match a with
  | ⟨0, _⟩ => show win0_2.index t (0 : Fin 2) * 256 + 1 * (i 0).val = (i 0).val; rw [e0]; omega
  | ⟨1, _⟩ => show win0_2.index t (1 : Fin 2) * 3072 + 1 * (i 1).val = (i 1).val; rw [e1]; omega

theorem w3Block_eq (c : Dev nD) (t : Fin cfg0.N) (i : S1024x3072.Idx) : (w3Block m c t i : EReal) = W3 m c i := by
  obtain ⟨-, -, -, ⟨e0, e1⟩, -⟩ := index_facts t
  unfold w3Block blockAt
  rw [View.read_apply]
  show entry m c main_v3 _ = _
  rw [entry_v3]
  congr 1
  funext a
  apply Fin.ext
  match a with
  | ⟨0, _⟩ => show win0_3.index t (0 : Fin 2) * 1024 + 1 * (i 0).val = (i 0).val; rw [e0]; omega
  | ⟨1, _⟩ => show win0_3.index t (1 : Fin 2) * 3072 + 1 * (i 1).val = (i 1).val; rw [e1]; omega

theorem uhBlock_eq (c : Dev nD) (t : Fin cfg0.N) (i : S256x1024.Idx) : (uhBlock m c t i : EReal) = (m ((c : Thread nD τ).loc main_arg5)) i := by
  obtain ⟨-, -, -, -, ⟨e0, e1⟩, -⟩ := index_facts t
  unfold uhBlock blockAt
  rw [View.read_apply]
  show entry m c main_v5 _ = _
  rw [entry_v5]
  congr 1
  funext a
  apply Fin.ext
  match a with
  | ⟨0, _⟩ => show win0_4.index t (0 : Fin 2) * 256 + 1 * (i 0).val = (i 0).val; rw [e0]; omega
  | ⟨1, _⟩ => show win0_4.index t (1 : Fin 2) * 1024 + 1 * (i 1).val = (i 1).val; rw [e1]; omega

theorem whBlock_eq (c : Dev nD) (t : Fin cfg0.N) (i : S1024x1024.Idx) : (whBlock m c t i : EReal) = (m ((c : Thread nD τ).loc main_arg9)) i := by
  obtain ⟨-, -, -, -, -, ⟨e0, e1⟩, -⟩ := index_facts t
  unfold whBlock blockAt
  rw [View.read_apply]
  show entry m c main_v6 _ = _
  rw [entry_v6]
  congr 1
  funext a
  apply Fin.ext
  match a with
  | ⟨0, _⟩ => show win0_5.index t (0 : Fin 2) * 1024 + 1 * (i 0).val = (i 0).val; rw [e0]; omega
  | ⟨1, _⟩ => show win0_5.index t (1 : Fin 2) * 1024 + 1 * (i 1).val = (i 1).val; rw [e1]; omega

theorem b3Block_eq (c : Dev nD) (t : Fin cfg0.N) (i : S1x3072.Idx) : (b3Block m c t i : EReal) = b3 m c i := by
  obtain ⟨-, -, -, -, -, -, ⟨e0, e1⟩, -⟩ := index_facts t
  unfold b3Block blockAt
  rw [View.read_apply]
  show entry m c main_v4 _ = _
  rw [entry_v4]
  congr 1
  funext a
  apply Fin.ext
  match a with
  | ⟨0, _⟩ => show win0_6.index t (0 : Fin 2) * 1 + 1 * (i 0).val = (i 0).val; rw [e0]; omega
  | ⟨1, _⟩ => show win0_6.index t (1 : Fin 2) * 3072 + 1 * (i 1).val = (i 1).val; rw [e1]; omega

theorem bhBlock_eq (c : Dev nD) (t : Fin cfg0.N) (i : S1x1024.Idx) : (bhBlock m c t i : EReal) = (m ((c : Thread nD τ).loc main_arg13)) i := by
  obtain ⟨-, -, -, -, -, -, -, ⟨e0, e1⟩, -⟩ := index_facts t
  unfold bhBlock blockAt
  rw [View.read_apply]
  show entry m c main_arg13 _ = _
  rw [entry_arg13]
  congr 1
  funext a
  apply Fin.ext
  match a with
  | ⟨0, _⟩ => show win0_7.index t (0 : Fin 2) * 1 + 1 * (i 0).val = (i 0).val; rw [e0]; omega
  | ⟨1, _⟩ => show win0_7.index t (1 : Fin 2) * 1024 + 1 * (i 1).val = (i 1).val; rw [e1]; omega

/-! ## The result array -/

/-- The cell of the launch memory's fourteen argument arrays. -/
abbrev result (c : Dev nD) : FVec Ideal Rows1024 .f32 :=
  cell (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- What the body stores at point t is rows 256 t … 256 t + 255 of the cell. -/
theorem stored_rows (c : Dev nD) (t : Fin cfg0.N) :
    Rows (rowOf t) (k0_pay1 (F := Ideal) (sBlock m c t) (xBlock m c t) (u3Block m c t) (w3Block m c t) (b3Block m c t)
      (uhBlock m c t) (whBlock m c t) (bhBlock m c t)) (result m c) :=
  pay_rows (sBlock_rows m c t) (xBlock_rows m c t) (u3Block_eq m c t) (w3Block_eq m c t) (funext (b3Block_eq m c t))
    (uhBlock_eq m c t) (whBlock_eq m c t) (funext (bhBlock_eq m c t))

/-- What point t writes back is rows 256 t … 256 t + 255 of the cell. -/
theorem flushed_eq (c : Dev nD) (t : Fin cfg0.N) :
    (dats m 0 c).flushed 8 t = ((cfg0.win 8).blk t).view.read (Elt Ideal) (result m c) := by
  show (cfg0.win 8).cut (grid0.coords t) ((dats m 0 c).after 8 t) = _
  rw [after_8]
  unfold stored
  rw [View.canon_unit_zero hz]
  simp only [View.ld_unit_zero (S := S256x1024) hz, View.ld_unit_zero (S := S256x256) hz, View.ld_unit_zero (S := S256x3072) hz,
    View.ld_unit_zero (S := S1024x3072) hz, View.ld_unit_zero (S := S1024x1024) hz, View.ld_unit_zero (S := S1x3072) hz,
    View.ld_unit_zero (S := S1x1024) hz]
  show (k0_pay1 (F := Ideal) (sBlock m c t) (xBlock m c t) (u3Block m c t) (w3Block m c t) (b3Block m c t)
      (uhBlock m c t) (whBlock m c t) (bhBlock m c t) : S256x1024.Idx → EReal)
    = fun j : S256x1024.Idx => result m c (((cfg0.win 8).blk t).view.emb j)
  funext j
  obtain ⟨p, q, rfl⟩ : ∃ (p : Fin 256) (q : Fin 1024), j = ix2 p q := ⟨j 0, j 1, eq_ix2 j⟩
  have hemb : ((cfg0.win 8).blk t).view.emb (ix2 p q : S256x1024.Idx) = (ix2 (rowOf t p) q : Rows1024.Idx) := by
    obtain ⟨-, -, -, -, -, -, -, -, ⟨e0, e1⟩⟩ := index_facts t
    funext a
    apply Fin.ext
    match a with
    | ⟨0, _⟩ => show win0_8.index t (0 : Fin 2) * 256 + 1 * p.val = 256 * t.val + p.val; rw [e0]; omega
    | ⟨1, _⟩ => show win0_8.index t (1 : Fin 2) * 1024 + 1 * q.val = q.val; rw [e1]; omega
  rw [hemb]
  exact stored_rows m c t p q

/-- An index of the result array lies in point t's block iff its row is one of rows 256 t … 256 t + 255. -/
theorem mem_block (t : Fin cfg0.N) (i : S32768x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v7).slice (win0_8.rect t)).set ↔ _
  rw [View.set_slice_whole, Rect.mem_set_unit]
  exact Iff.rfl

/-- The 128 blocks tile the rows: row r is in block r / 256. -/
theorem covered (i : S32768x1024.Idx) :
    ∃ t : Fin cfg0.N, (cfg0.win 8).flush t = true ∧ i ∈ ((cfg0.win 8).blk t).view.set := by
  have hi0 : (i 0).val < 32768 := (i 0).isLt
  have hi1 : (i 1).val < 1024 := (i 1).isLt
  have hN : cfg0.N = 128 := N_0
  let t : Fin cfg0.N := ⟨(i 0).val / 256, by rw [hN]; omega⟩
  obtain ⟨-, -, -, -, -, -, -, -, ⟨e0, e1⟩⟩ := index_facts t
  have ht : t.val = (i 0).val / 256 := rfl
  refine ⟨t, flush0_8 t, ?_⟩
  rw [mem_block]
  intro a
  match a with
  | ⟨0, _⟩ =>
    show win0_8.index t (0 : Fin 2) * 256 ≤ (i 0).val ∧ (i 0).val < win0_8.index t (0 : Fin 2) * 256 + 256
    rw [e0, ht]; omega
  | ⟨1, _⟩ =>
    show win0_8.index t (1 : Fin 2) * 1024 ≤ (i 1).val ∧ (i 1).val < win0_8.index t (1 : Fin 2) * 1024 + 1024
    rw [e1]; omega

/-- So the result array ends holding the cell. -/
theorem final (c : Dev nD) : (dats m 0 c).arrAt 8 cfg0.N = result m c :=
  (dats m 0 c).arrAt_eq_of_cover 8 (result m c) (fun t _ => flushed_eq m c t) covered

/-- The run, read: the result array at the cell of the arguments, the arguments unchanged. -/
theorem run : θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1.trans (final m c), (h c).2⟩) (run_named m ρ)

end Cert.KernelIdeal.CellValue

end
-- ==== Proof.ReferenceIsCell.lean ====
/-
  The reference program's result, as its run states it, is the cell of its fourteen argument arrays: the same tree of
  host operations, with the three side-by-side arrays and the gates' matrix named once instead of written out three times.
-/
import proofs.«138564_j36833639531104_1_alg».proof.Proof.Gen.ReferenceIdeal.Run
import proofs.«138564_j36833639531104_1_alg».proof.Proof.CellSpec

noncomputable section

namespace Cert.ReferenceIdeal.CellValue

open Cert.ReferenceIdeal Cert.ReferenceIdeal.Gen Idealize.ShloMosaic Idealize.ShloMosaic.TcCoe Idealize.SL.Sem

variable {F : FTy → Type} [FloatOps F]

theorem result_is_cell (m : (ℓ : Loc nD τ sig) → Buf (Elt F) ℓ) (c : Dev nD) :
    Cert.ReferenceIdeal.Value.res_main_v23 m c
      = CellSpec.cell (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) := by
  unfold Cert.ReferenceIdeal.Value.res_main_v23
  rfl

end Cert.ReferenceIdeal.CellValue

end
-- ==== Proof.lean ====
/-
  A recurrent cell with tanh gates, tiled over 128 blocks of 256 rows, against the same cell written over whole arrays.

  Both programs lay [Uz | Ug | Ur], [Wz | Wg | Wr] and [bz | bg | br] side by side and compute, row by row,
      g = tanh (X·U₃ + S·W₃ + b₃),  z, γ, r the three bands of g,
      c = tanh (X·U_h + (S ∘ r)·W_h + b_h),  result = (1 − γ) ∘ c + z ∘ S,
  with the same operations in the same order. The tiled program narrows its matrix operands to a shorter float format
  before each product and accumulates each product into a zero matrix; read over the extended reals a narrowing changes no
  value and a product into zero is the plain product, so no algebraic law is needed beyond reading both sides row by row:
  every operation of the cell sends row p of its matrix operands to row p of its result, the block of point t is rows
  256 t … 256 t + 255, and the 128 blocks tile the 32768 rows. Finiteness of the inputs is never used.

  The two tiled programs (word level and exact) run to the end without touching their arguments: the host operations write
  only their own results and the region writes only its result array. The reference is host operations only.
-/
import proofs.«138564_j36833639531104_1_alg».proof.Defs
import proofs.«138564_j36833639531104_1_alg».proof.Proof.Gen.Kernel
import proofs.«138564_j36833639531104_1_alg».proof.Proof.Gen.KernelIdeal
import proofs.«138564_j36833639531104_1_alg».proof.Proof.Gen.ReferenceIdeal
import proofs.«138564_j36833639531104_1_alg».proof.Proof.Gen.ReferenceIdeal.Run
import proofs.«138564_j36833639531104_1_alg».proof.Proof.Gen.Pre_finite_inputs
import proofs.«138564_j36833639531104_1_alg».proof.Proof.KernelCell
import proofs.«138564_j36833639531104_1_alg».proof.Proof.KernelIdealCell
import proofs.«138564_j36833639531104_1_alg».proof.Proof.KernelIdealValue
import proofs.«138564_j36833639531104_1_alg».proof.Proof.ReferenceIsCell
import Idealize.ShloMosaic.Adequacy
import Idealize.ShloMosaic.Init

noncomputable section

namespace Cert.Proof

open Idealize.ShloMosaic Idealize.SL.Sem

/-- The word-level tiled program runs and leaves its arguments as they were. -/
theorem frame_kernel : Cert.frame_Kernel := fun m ρ _ => Cert.Kernel.Cell.frame m ρ

/-- So does its reading over the extended reals. -/
theorem frame_kernelIdeal : Cert.frame_KernelIdeal := fun m ρ _ => Cert.KernelIdeal.Cell.frame m ρ

/-- The reference is a line of host operations: it runs, and none of them writes an argument. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the cell of the fourteen arguments in their result array. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.CellValue.result m c
  rw [Cert.ReferenceIdeal.CellValue.result_is_cell]
  obtain ⟨h0, h1, h2, h3, h4, h5, h6, h7, h8, h9, h10, h11, h12, h13⟩ := hagree c
  rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
